-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S64x256 : Shape := ⟨2, ![64, 256]⟩
abbrev S200000 : Shape := ⟨1, ![200000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg4 : IVec S200000 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S200000 32 := broadcastInDim S200000 ![] bcast_S_S200000 main_c_14
  let main_v40 : IVec S200000 1 := cmpi .sge main_arg4 main_v39
  let main_c_15 : IVec S_ 1 := constantI S_ 1 1#1
  let main_v41 : IVec S_ 1 := (fun x v => Host.reduce IntOp.andi x v reducesTo_S200000_S_d0 h_S_) main_v40 main_c_15
  let main_v42 : IVec S_ 1 := andi main_v38 main_v41
  let main_c_16 : IVec S_ 32 := constantI S_ 32 64#32
  let main_v43 : IVec S200000 32 := broadcastInDim S200000 ![] bcast_S_S200000 main_c_16
  let main_v44 : IVec S200000 1 := cmpi .slt main_arg4 main_v43
  let main_c_17 : IVec S_ 1 := constantI S_ 1 1#1
  let main_v45 : IVec S_ 1 := (fun x v => Host.reduce IntOp.andi x v reducesTo_S200000_S_d0 h_S_) main_v44 main_c_17
  let main_v46 : IVec S_ 1 := andi main_v42 main_v45
  main_v46

def fn_part1 {F : FTy → Type} [FloatOps F] (main_arg4 : IVec S200000 32) (main_arg5 : FVec F S1024x512 .f32) (main_arg6 : FVec F S512 .f32) (main_arg7 : FVec F S512x256 .f32) (main_arg8 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg4 main_arg8 main_v33

def fn {F : FTy → Type} [FloatOps F] (main_arg0 : FVec F S200000x256 .f32) (main_arg1 : FVec F S200000x256 .f32) (main_arg2 : FVec F S200000x256 .f32) (main_arg3 : FVec F S64x256 .f32) (main_arg4 : IVec S200000 32) (main_arg5 : FVec F S1024x512 .f32) (main_arg6 : FVec F S512 .f32) (main_arg7 : FVec F S512x256 .f32) (main_arg8 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_v13 main_v16
-- ==== Kernel.lean ====
abbrev S200000x256 : Shape := ⟨2, ![200000, 256]⟩
abbrev S64x256 : Shape := ⟨2, ![64, 256]⟩
abbrev S200000 : Shape := ⟨1, ![200000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S200000x1 : Shape := ⟨2, ![200000, 1]⟩
abbrev S768x512 : Shape := ⟨2, ![768, 512]⟩
abbrev S256x512 : Shape := ⟨2, ![256, 512]⟩
abbrev S64x512 : Shape := ⟨2, ![64, 512]⟩
abbrev S2000x256 : Shape := ⟨2, ![2000, 256]⟩
abbrev S2000x1 : Shape := ⟨2, ![2000, 1]⟩
abbrev S2000x64 : Shape := ⟨2, ![2000, 64]⟩
abbrev S2000x512 : Shape := ⟨2, ![2000, 512]⟩
abbrev S1x512 : Shape := ⟨2, ![1, 512]⟩
abbrev S1x256 : Shape := ⟨2, ![1, 256]⟩

abbrev nBuf : Space → Nat
  | .hbm => 17
  | .vmem => 15
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S64x256, .f32⟩
  | .hbm, ⟨4, _⟩ => ⟨S200000, .i32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S200000x1, .i32⟩
  | .hbm, ⟨10, _⟩ => ⟨S768x512, .f32⟩
  | .hbm, ⟨11, _⟩ => ⟨S768x512, .bf16⟩
  | .hbm, ⟨12, _⟩ => ⟨S256x512, .f32⟩
  | .hbm, ⟨13, _⟩ => ⟨S64x512, .f32⟩
  | .hbm, ⟨14, _⟩ => ⟨S64x512, .bf16⟩
  | .hbm, ⟨15, _⟩ => ⟨S512x256, .bf16⟩
  | .hbm, ⟨16, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x1, .i32⟩
  | .local _ .vmem, ⟨7, _⟩ => ⟨S2000x1, .i32⟩
  | .local _ .vmem, ⟨8, _⟩ => ⟨S64x512, .bf16⟩
  | .local _ .vmem, ⟨9, _⟩ => ⟨S768x512, .bf16⟩
  | .local _ .vmem, ⟨10, _⟩ => ⟨S512, .f32⟩
  | .local _ .vmem, ⟨11, _⟩ => ⟨S512x256, .bf16⟩
  | .local _ .vmem, ⟨12, _⟩ => ⟨S256, .f32⟩
  | .local _ .vmem, ⟨13, _⟩ => ⟨S2000x256, .f32⟩
  | .local _ .vmem, ⟨14, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S200000_S200000x1 : S200000.ShapeCasts S200000x1
  slices_S1024x512_S768x512_0_0 : S1024x512.Slices ![0, 0] S768x512
  bitsLt_bf16_f32 : FTy.bits .bf16 < FTy.bits .f32
  slices_S1024x512_S256x512_768_0 : S1024x512.Slices ![768, 0] S256x512
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  inb_S2000x256_S2000x256_0_0 : ∀ a, (![0, 0] : Fin 2 → Nat) a + S2000x256.size a ≤ S2000x256.size a
  h_S2000x256 : 0 < S2000x256.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  slices_S768x512_o0_0_S256x512 : S768x512.Slices ![0, 0] S256x512
  slices_S768x512_o256_0_S256x512 : S768x512.Slices ![256, 0] S256x512
  slices_S768x512_o512_0_S256x512 : S768x512.Slices ![512, 0] S256x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  dot_S64x256_S256x512_S64x512_1_0_0_1_n_n_wf : DotDims.WF S64x256 S256x512 S64x512 [1] [0] [0] [1] [] []
  dot_S2000x256_S256x512_S2000x512_1_0_0_1_n_n_wf : DotDims.WF S2000x256 S256x512 S2000x512 [1] [0] [0] [1] [] []
  dot_S2000x64_S64x512_S2000x512_1_0_0_1_n_n_wf : DotDims.WF S2000x64 S64x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S200000x1.size a
  hwx0_3 : ∀ i : grid0.Coords, EltTy.bits .i32 = 32 ∨ (Rect.block (s := S200000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .bf16 = 32 ∨ (Rect.block (s := S64x512) S64x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .bf16 = 32 ∨ (Rect.block (s := S768x512) S768x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S200000x256.size a
  hwx0_9 : ∀ i : grid0.Coords, EltTy.bits .f32 = 32 ∨ (Rect.block (s := S200000x256) S2000x256.size (cc0_transform_9 i) (hinb0_9 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x256 : Shape := ⟨2, ![200000, 256]⟩
abbrev S64x256 : Shape := ⟨2, ![64, 256]⟩
abbrev S200000 : Shape := ⟨1, ![200000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S_ : Shape := ⟨0, ![]⟩
abbrev S200000x1 : Shape := ⟨2, ![200000, 1]⟩
abbrev S200000x1024 : Shape := ⟨2, ![200000, 1024]⟩
abbrev S200000x512 : Shape := ⟨2, ![200000, 512]⟩
abbrev S1x512 : Shape := ⟨2, ![1, 512]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S64x256, .f32⟩
  | .hbm, ⟨4, _⟩ => ⟨S200000, .i32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x256, .f32⟩
  | .hbm, ⟨18, _⟩ => ⟨S200000x1024, .f32⟩
  | .hbm, ⟨19, _⟩ => ⟨S200000x512, .f32⟩
  | .hbm, ⟨20, _⟩ => ⟨S1x512, .f32⟩
  | .hbm, ⟨21, _⟩ => ⟨S200000x512, .f32⟩
  | .hbm, ⟨22, _⟩ => ⟨S200000x512, .f32⟩
  | .hbm, ⟨23, _⟩ => ⟨S_, .f32⟩
  | .hbm, ⟨24, _⟩ => ⟨S200000x512, .f32⟩
  | .hbm, ⟨25, _⟩ => ⟨S200000x512, .f32⟩
  | .hbm, ⟨26, _⟩ => ⟨S200000x256, .f32⟩
  | .hbm, ⟨27, _⟩ => ⟨S1x256, .f32⟩
  | .hbm, ⟨28, _⟩ => ⟨S200000x256, .f32⟩
  | .hbm, ⟨29, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x256_S200000x256_S200000x1024_d1 : Shape.Concatenates [S200000x256, S200000x256, S200000x256, S200000x256] S200000x1024 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  gather_S64x256_S200000x1_S200000x256_1_0_n_n_0_1_1256_wf : GatherDims.WF S64x256 S200000x1 S200000x256 [1] [0] [] [0] [] 1 ![1, 256]
  dot_S200000x1024_S1024x512_S200000x512_1_0_0_1_n_n_wf : DotDims.WF S200000x1024 S1024x512 S200000x512 [1] [0] [0] [1] [] []
  dot_S200000x512_S512x256_S200000x256_1_0_0_1_n_n_wf : DotDims.WF S200000x512 S512x256 S200000x256 [1] [0] [0] [1] [] []

variable [Facts₀]

def gather_S64x256_S200000x1_S200000x256_1_0_n_n_0_1_1256 : GatherDims S64x256 S200000x1 S200000x256 where
  offsetDims := [1]
  collapsedSliceDims := [0]
  operandBatchingDims := []
  startIndicesBatchingDims := []
  startIndexMap := [0]
  indexVectorDim := 1
  sliceSizes := ![1, 256]
  wf := gather_S64x256_S200000x1_S200000x256_1_0_n_n_0_1_1256_wf
def dot_S200000x1024_S1024x512_S200000x512_1_0_0_1_n_n : DotDims S200000x1024 S1024x512 S200000x512 where
  lhsContracting := [1]
  rhsContracting := [0]
  lhsNonContracting := [0]
  rhsNonContracting := [1]
  lhsBatch := []
  rhsBatch := []
  wf := dot_S200000x1024_S1024x512_S200000x512_1_0_0_1_n_n_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf

class Facts : Prop extends Facts₀ where

variable [Facts]
-- ==== Proof.LibPlainDot.lean ====
/-
  A plain matrix product read at an entry, at the ideal values.

  For the dimension numbers of an M×K by K×N product (contract the left operand's second axis with the right
  operand's first, no batch axes), a `tpu.matmul` into the zero accumulator and the host's `dot_general` are, at
  the entry (r, c), the sum over k of left (r, k) times right (k, c) on the extended reals.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's index at output entry `j` and contraction index `q`: row of `j`, column `q`. -/
theorem lhsIdx_eq (j : (⟨2, ![M, N]⟩ : Shape).Idx) (k : Fin K) :
    (DotDims.plain M K N).lhsIdx j ((contrEquiv1 (DotDims.plain M K N) K rfl rfl).symm k)
      = ix2 ⟨(j 0).val, idx2_lt0 j⟩ k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index there: row `q`, column of `j`. -/
theorem rhsIdx_eq (j : (⟨2, ![M, N]⟩ : Shape).Idx) (k : Fin K) :
    (DotDims.plain M K N).rhsIdx j ((contrEquiv1 (DotDims.plain M K N) K rfl rfl).symm k)
      = ix2 k ⟨(j 1).val, idx2_lt1 j⟩ := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A `tpu.matmul` of these dimension numbers into the zero splat, at entry (r, c): `∑ k, lhs (r, k) * rhs (k, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's `dot_general` of these dimension numbers at entry (r, c): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.Spec.lean ====
/-
  The edge model as one function of its arguments, and the algebra that joins its two arrangements.

  For an edge e with graph id g(e), and with the weight matrix W1 : [1024, 512] read as four bands of 256 rows,
    hidden(e, h) = ∑_{k < 1024} cat(e, k) · W1(k, h) + b1(h),   cat(e, ·) = src(e, ·) ‖ dest(e, ·) ‖ attr(e, ·) ‖ u(g(e), ·)
    out(e, j)    = ∑_{h < 512} max(hidden(e, h), 0) · W2(h, j) + b2(j).
  One arrangement contracts the concatenated row against W1 in one sum of 1024 terms. The other adds four sums of
  256 terms, one per band, and replaces the gathered row u(g(e), ·) by a selection: with
  T(b, h) = ∑_{k < 256} u(b, k) · W1(768 + k, h), the fourth band's sum is ∑_{b < 64} [g(e) = b] · T(b, h) = T(g(e), h).
  On the extended reals 0 · x = 0 for every x and addition is a commutative monoid, so the two agree with no
  finiteness assumption, as soon as the graph id is one of the 64 rows.
-/
import Idealize.ShloMosaic.PureOps.Ideal
import Idealize.ShloMosaic.Lib.ValueIdx
import Mathlib.Algebra.BigOperators.Fin

noncomputable section

open scoped BigOperators

namespace Cert.EdgeModel

open Idealize.ShloMosaic Idealize.ShloMosaic.ValueIdx

/-! ## Sums -/

/-- A sum over 1024 indices as the four sums over its quarters, grouped from the left. -/
theorem sum_quarters {M : Type*} [AddCommMonoid M] (f : Fin 1024 → M) :
    ∑ k, f k = ((∑ k : Fin 256, f ⟨k.val, by have := k.isLt; omega⟩ + ∑ k : Fin 256, f ⟨256 + k.val, by have := k.isLt; omega⟩)
        + ∑ k : Fin 256, f ⟨512 + k.val, by have := k.isLt; omega⟩) + ∑ k : Fin 256, f ⟨768 + k.val, by have := k.isLt; omega⟩ := by
  have h1 : ∑ k, f k = ∑ i : Fin 768, f ⟨i.val, by have := i.isLt; omega⟩ + ∑ i : Fin 256, f ⟨768 + i.val, by have := i.isLt; omega⟩ :=
    Fin.sum_univ_add (a := 768) (b := 256) f
  have h2 : ∑ i : Fin 768, f ⟨i.val, by have := i.isLt; omega⟩
      = ∑ i : Fin 512, f ⟨i.val, by have := i.isLt; omega⟩ + ∑ i : Fin 256, f ⟨512 + i.val, by have := i.isLt; omega⟩ :=
    Fin.sum_univ_add (a := 512) (b := 256) (fun i : Fin 768 => f ⟨i.val, by have := i.isLt; omega⟩)
  have h3 : ∑ i : Fin 512, f ⟨i.val, by have := i.isLt; omega⟩
      = ∑ i : Fin 256, f ⟨i.val, by have := i.isLt; omega⟩ + ∑ i : Fin 256, f ⟨256 + i.val, by have := i.isLt; omega⟩ :=
    Fin.sum_univ_add (a := 256) (b := 256) (fun i : Fin 512 => f ⟨i.val, by have := i.isLt; omega⟩)
  rw [h1, h2, h3]

/-! ## The selection row -/

/-- Entry b of the selection row of a graph id word: the word compared with b, the bit widened to 32 bits and read as a
    signed integer — 1 where they are equal and 0 elsewhere. -/
def oneHot (w : BitVec 32) (b : Fin 64) : EReal :=
  ((((IntOp.cmpi .eq w (BitVec.ofNat 32 b.val)).setWidth 32).toInt : ℝ) : EReal)

theorem oneHot_self (b : Fin 64) : oneHot (BitVec.ofNat 32 b.val) b = 1 := by
  unfold oneHot
  have h : IntOp.cmpi .eq (BitVec.ofNat 32 b.val) (BitVec.ofNat 32 b.val) = 1#1 := by
    simp [IntOp.cmpi]
  rw [h]
  have h' : ((1#1 : BitVec 1).setWidth 32).toInt = 1 := by decide
  rw [h']
  simp

theorem oneHot_ne (w : BitVec 32) (b : Fin 64) (hne : w ≠ BitVec.ofNat 32 b.val) : oneHot w b = 0 := by
  unfold oneHot
  have h : IntOp.cmpi .eq w (BitVec.ofNat 32 b.val) = 0#1 := by
    have hb : (w == BitVec.ofNat 32 b.val) = false := beq_eq_false_iff_ne.mpr hne
    simp [IntOp.cmpi, hb]
  rw [h]
  have h' : ((0#1 : BitVec 1).setWidth 32).toInt = 0 := by decide
  rw [h']
  simp

/-- Against the selection row of an id below 64, a sum over the 64 rows picks the id's row. -/
theorem sum_oneHot (w : BitVec 32) (hw : w.toNat < 64) (g : Fin 64 → EReal) :
    ∑ b : Fin 64, oneHot w b * g b = g ⟨w.toNat, hw⟩ := by
  have hwb : BitVec.ofNat 32 w.toNat = w := by
    apply BitVec.eq_of_toNat_eq
    simp only [BitVec.toNat_ofNat]
    omega
  have e1 : oneHot w ⟨w.toNat, hw⟩ = 1 := by
    have h : oneHot (BitVec.ofNat 32 w.toNat) ⟨w.toNat, hw⟩ = 1 := oneHot_self ⟨w.toNat, hw⟩
    rwa [hwb] at h
  rw [Finset.sum_eq_single (⟨w.toNat, hw⟩ : Fin 64)]
  · rw [e1, one_mul]
  · intro b _ hb
    rw [oneHot_ne w b, zero_mul]
    intro h
    apply hb
    apply Fin.ext
    have := congrArg BitVec.toNat h
    simp only [BitVec.toNat_ofNat] at this
    have hb64 := b.isLt
    show b.val = w.toNat
    omega
  · intro h
    exact absurd (Finset.mem_univ _) h

/-! ## The graph id of an edge -/

/-- The row of u an edge reads, from its graph id word: a negative word is first raised by 64 (a negative index
    counts from the end), then the word is read signed and clamped into [0, 63]. -/
def graphOf (w : BitVec 32) : Fin 64 :=
  ⟨min (Scalar.select (IntOp.cmpi .slt w 0#32) (IntOp.addi w 64#32) w).toInt.toNat 63, by omega⟩

/-- For an id word that is already one of 0 … 63, that row is the word's value. -/
theorem graphOf_of_lt (w : BitVec 32) (hw : w.toNat < 64) : graphOf w = ⟨w.toNat, hw⟩ := by
  have hint : w.toInt = (w.toNat : Int) := by
    rw [BitVec.toInt_eq_toNat_cond]
    rw [if_pos (by omega)]
  have hs : IntOp.cmpi .slt w 0#32 = 0#1 := by
    have h0 : (0#32 : BitVec 32).toInt = 0 := by decide
    have hn : ¬ ((w.toNat : Int) < 0) := by omega
    simp [IntOp.cmpi, BitVec.slt, hint, h0, hn]
  apply Fin.ext
  show min (Scalar.select (IntOp.cmpi .slt w 0#32) (IntOp.addi w 64#32) w).toInt.toNat 63 = w.toNat
  rw [hs, select_zero, hint]
  simp only [Int.toNat_natCast]
  omega

/-! ## The function -/

abbrev SEdges : Shape := ⟨2, ![200000, 256]⟩
abbrev SGlobals : Shape := ⟨2, ![64, 256]⟩
abbrev SIds : Shape := ⟨1, ![200000]⟩
abbrev SW1 : Shape := ⟨2, ![1024, 512]⟩
abbrev SB1 : Shape := ⟨1, ![512]⟩
abbrev SW2 : Shape := ⟨2, ![512, 256]⟩
abbrev SB2 : Shape := ⟨1, ![256]⟩

section
variable (src dest attr : SEdges.Idx → EReal) (u : SGlobals.Idx → EReal) (ids : SIds.Idx → BitVec 32)
  (w1 : SW1.Idx → EReal) (b1 : SB1.Idx → EReal) (w2 : SW2.Idx → EReal) (b2 : SB2.Idx → EReal)

/-- The concatenated row of edge e: its source, destination and attribute features and its graph's global features. -/
def catRow (e : Fin 200000) (k : Fin 1024) : EReal :=
  if h0 : k.val < 256 then src (ix2 e ⟨k.val, h0⟩)
  else if h1 : k.val < 512 then dest (ix2 e ⟨k.val - 256, by omega⟩)
  else if h2 : k.val < 768 then attr (ix2 e ⟨k.val - 512, by omega⟩)
  else u (ix2 (graphOf (ids (ix1 e))) ⟨k.val - 768, by have := k.isLt; omega⟩)

/-- The first layer before the rectifier. -/
def hidden (e : Fin 200000) (h : Fin 512) : EReal :=
  (∑ k : Fin 1024, catRow src dest attr u ids e k * w1 (ix2 k h)) + b1 (ix1 h)

/-- The edge model's output, entry by entry. -/
def out : SEdges.Idx → EReal := fun i =>
  (∑ h : Fin 512, max (hidden src dest attr u ids w1 b1 ⟨(i 0).val, idx2_lt0 i⟩ h) 0 * w2 (ix2 h ⟨(i 1).val, idx2_lt1 i⟩))
    + b2 (ix1 ⟨(i 1).val, idx2_lt1 i⟩)

/-- The graph table folded into the first layer: row b is u's row b against the fourth band of W1. -/
def foldedRow (b : Fin 64) (h : Fin 512) : EReal :=
  ∑ k : Fin 256, u (ix2 b k) * w1 (ix2 ⟨768 + k.val, by have := k.isLt; omega⟩ h)

/-- THE TWO ARRANGEMENTS AGREE: the four band sums, the fourth through the selection row of an id below 64, are the one
    contraction of the concatenated row. -/
theorem bands_eq (e : Fin 200000) (h : Fin 512) (hid : (ids (ix1 e)).toNat < 64) :
    (((∑ k : Fin 256, src (ix2 e k) * w1 (ix2 ⟨k.val, by have := k.isLt; omega⟩ h))
        + ∑ k : Fin 256, dest (ix2 e k) * w1 (ix2 ⟨256 + k.val, by have := k.isLt; omega⟩ h))
        + ∑ k : Fin 256, attr (ix2 e k) * w1 (ix2 ⟨512 + k.val, by have := k.isLt; omega⟩ h))
        + ∑ b : Fin 64, oneHot (ids (ix1 e)) b * foldedRow u w1 b h
      = ∑ k : Fin 1024, catRow src dest attr u ids e k * w1 (ix2 k h) := by
  rw [sum_quarters (fun k : Fin 1024 => catRow src dest attr u ids e k * w1 (ix2 k h)), sum_oneHot _ hid]
  have q0 : ∀ k : Fin 256, catRow src dest attr u ids e ⟨k.val, by have := k.isLt; omega⟩ = src (ix2 e k) := by
    intro k; have hk := k.isLt
    unfold catRow
    rw [dif_pos (show k.val < 256 from hk)]
  have q1 : ∀ k : Fin 256, catRow src dest attr u ids e ⟨256 + k.val, by have := k.isLt; omega⟩ = dest (ix2 e k) := by
    intro k; have hk := k.isLt
    unfold catRow
    rw [dif_neg (show ¬ 256 + k.val < 256 by omega), dif_pos (show 256 + k.val < 512 by omega)]
    congr 2; apply Fin.ext; show 256 + k.val - 256 = k.val; omega
  have q2 : ∀ k : Fin 256, catRow src dest attr u ids e ⟨512 + k.val, by have := k.isLt; omega⟩ = attr (ix2 e k) := by
    intro k; have hk := k.isLt
    unfold catRow
    rw [dif_neg (show ¬ 512 + k.val < 256 by omega), dif_neg (show ¬ 512 + k.val < 512 by omega),
      dif_pos (show 512 + k.val < 768 by omega)]
    congr 2; apply Fin.ext; show 512 + k.val - 512 = k.val; omega
  have q3 : ∀ k : Fin 256, catRow src dest attr u ids e ⟨768 + k.val, by have := k.isLt; omega⟩
      = u (ix2 ⟨(ids (ix1 e)).toNat, hid⟩ k) := by
    intro k; have hk := k.isLt
    unfold catRow
    rw [dif_neg (show ¬ 768 + k.val < 256 by omega), dif_neg (show ¬ 768 + k.val < 512 by omega),
      dif_neg (show ¬ 768 + k.val < 768 by omega), graphOf_of_lt _ hid]
    congr 2; apply Fin.ext; show 768 + k.val - 768 = k.val; omega
  simp only [q0, q1, q2, q3]
  rfl

end

end Cert.EdgeModel

end
-- ==== Proof.KernelRow.lean ====
/-
  One entry of the block a grid point computes, from the blocks it loads.

  At a grid point the body holds 2000 edges' rows: the id column `ids`, the three feature blocks `xs xd xa`, the 768
  rows `wabc` of the first-layer weights that face them, the folded graph table `tu` (64 rows), the bias `c1`, and
  the second layer `w2`. Entry (r, j) of what it computes before the output bias is
    ∑_{h < 512} max( ∑_k xs(r,k)·wabc(k,h) + ∑_k xd(r,k)·wabc(256+k,h) + ∑_k xa(r,k)·wabc(512+k,h)
                     + ∑_{b < 64} [ids(r) = b]·tu(b,h) + c1(h), 0 ) · w2(h, j):
  four matrix products into zero accumulators added left to right, the bias row broadcast down the rows, the
  rectifier against the zero splat, and one more matrix product. The selection matrix is the id column broadcast along
  64 lanes and compared with the lane number; the three weight bands are unit-stride slices of one loaded block.
  Changes of float format are the identity on extended reals.
-/
import proofs.«427839_j72567767433246_3_alg».proof.Proof.Gen.KernelIdeal.Skeleton
import proofs.«427839_j72567767433246_3_alg».proof.Proof.LibPlainDot
import proofs.«427839_j72567767433246_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.EdgeModel

/-! ## The layout operations of the body, read at an entry -/

/-- A band of 256 rows of the loaded 768-row weight block, starting at row `off`. -/
theorem band_apply (off : Nat) (hoff : off + 256 ≤ 768) (wabc : FVec Ideal S768x512 .bf16) (h1 : S768x512.ShapeCasts S768x512)
    (h2 : S768x512.Slices ![off, 0] S256x512) (k : Fin 256) (h : Fin 512) :
    extractStridedSlice S256x512 ![off, 0] (shapeCast S768x512 wabc h1) h2 (ix2 k h)
      = wabc (ix2 ⟨off + k.val, by have := k.isLt; omega⟩ h) := by
  rw [shapeCast_self]
  refine extractStridedSlice_apply _ _ _ _ _ (fun a => ?_)
  match a with
  | ⟨0, _⟩ => rfl
  | ⟨1, _⟩ => show h.val = 0 + h.val; omega

/-- The bias vector viewed as one row and broadcast down the 2000 rows. -/
theorem bias_row_apply (c1 : FVec Ideal S512 .f32) (h1 : S512.ShapeCasts S1x512) (h2 : S1x512.Broadcasts S2000x512)
    (r : Fin 2000) (h : Fin 512) :
    broadcastTo S2000x512 (shapeCast S1x512 c1 h1) h2 (ix2 r h) = c1 (ix1 h) := by
  refine (broadcastTo_apply _ _ (ix2 r h) (ix2 (⟨0, Nat.one_pos⟩ : Fin 1) h) (fun a => ?_)).trans ?_
  · match a with
    | ⟨0, _⟩ => show 0 = (if (1 : Nat) = 1 then 0 else r.val); rw [if_pos rfl]
    | ⟨1, _⟩ => show h.val = (if (512 : Nat) = 1 then 0 else h.val); rw [if_neg (by decide)]
  · refine shapeCast_apply _ _ _ (ix1 h) ?_
    rw [Shape.rowMajor_val_one, Shape.rowMajor_val_two]
    show h.val = 0 * 512 + h.val
    omega

/-- The id column broadcast along the 64 lanes. -/
theorem id_lanes_apply (ids : Vec Ideal S2000x1 .i32) (h1 : S2000x1.ShapeCasts S2000x1) (h2 : S2000x1.Broadcasts S2000x64)
    (r : Fin 2000) (b : Fin 64) :
    broadcastTo S2000x64 (shapeCast S2000x1 ids h1) h2 (ix2 r b) = ids (ix2 r (⟨0, Nat.one_pos⟩ : Fin 1)) := by
  rw [shapeCast_self]
  refine broadcastTo_apply _ _ (ix2 r b) (ix2 r (⟨0, Nat.one_pos⟩ : Fin 1)) (fun a => ?_)
  match a with
  | ⟨0, _⟩ => show r.val = (if (2000 : Nat) = 1 then 0 else r.val); rw [if_neg (by decide)]
  | ⟨1, _⟩ => show 0 = (if (1 : Nat) = 1 then 0 else b.val); rw [if_pos rfl]

/-- The selection matrix: the id column along the lanes compared with the lane number, widened and converted. -/
theorem selection_apply (ids : Vec Ideal S2000x1 .i32) (h1 : S2000x1.ShapeCasts S2000x1) (h2 : S2000x1.Broadcasts S2000x64)
    (h3 : S2000x64.Iotas .tc 32 [1]) (h4 : 1 < 32) (r : Fin 2000) (b : Fin 64) :
    (sitofp .f32 (extui 32 (cmpi .eq (broadcastTo S2000x64 (shapeCast S2000x1 ids h1) h2) (iota .tc S2000x64 32 [1] h3)) h4)
        : FVec Ideal S2000x64 .f32) (ix2 r b)
      = oneHot (ids (ix2 r (⟨0, Nat.one_pos⟩ : Fin 1))) b := by
  show ((((IntOp.cmpi .eq (broadcastTo S2000x64 (shapeCast S2000x1 ids h1) h2 (ix2 r b))
      (iota .tc S2000x64 32 [1] h3 (ix2 r b))).setWidth 32).toInt : ℝ) : EReal) = _
  rw [id_lanes_apply, iota_single_apply]
  rfl

/-! ## The matrix products of the body, read at an entry -/

theorem dot256_apply {φ₁ φ₂ : FTy} (L : FVec Ideal S2000x256 φ₁) (R : FVec Ideal S256x512 φ₂) (r : Fin 2000) (h : Fin 512) :
    matmul dot_S2000x256_S256x512_S2000x512_1_0_0_1_n_n none L R (constant S2000x512 .f32 0x00000000#32) (ix2 r h)
      = ∑ k : Fin 256, L (ix2 r k) * R (ix2 k h) :=
  PlainDot.matmul_zero_apply 2000 256 512 none L R r h

theorem dot64_apply {φ₁ φ₂ : FTy} (L : FVec Ideal S2000x64 φ₁) (R : FVec Ideal S64x512 φ₂) (r : Fin 2000) (h : Fin 512) :
    matmul dot_S2000x64_S64x512_S2000x512_1_0_0_1_n_n none L R (constant S2000x512 .f32 0x00000000#32) (ix2 r h)
      = ∑ b : Fin 64, L (ix2 r b) * R (ix2 b h) :=
  PlainDot.matmul_zero_apply 2000 64 512 none L R r h

theorem dot512_apply {φ₁ φ₂ : FTy} (L : FVec Ideal S2000x512 φ₁) (R : FVec Ideal S512x256 φ₂) (r : Fin 2000) (j : Fin 256) :
    matmul dot_S2000x512_S512x256_S2000x256_1_0_0_1_n_n none L R (constant S2000x256 .f32 0x00000000#32) (ix2 r j)
      = ∑ h : Fin 512, L (ix2 r h) * R (ix2 h j) :=
  PlainDot.matmul_zero_apply 2000 512 256 none L R r j

/-! ## The body's value before the output bias -/

section
variable (ids : Vec Ideal S2000x1 .i32) (xs xd xa : FVec Ideal S2000x256 .f32) (wabc : FVec Ideal S768x512 .bf16)
  (tu : FVec Ideal S64x512 .bf16) (c1 : FVec Ideal S512 .f32) (w2 : FVec Ideal S512x256 .bf16)

/-- The body's arithmetic as the tree of its vector operations. -/
theorem payload_tree :
    k0_pay2 (F := Ideal) ids xs xd xa wabc tu c1 w2
      = matmul dot_S2000x512_S512x256_S2000x256_1_0_0_1_n_n none
          (truncf .bf16 (maximumf (addf (addf (addf (addf
            (matmul dot_S2000x256_S256x512_S2000x512_1_0_0_1_n_n none (truncf .bf16 xs bitsLt_bf16_f32)
              (extractStridedSlice S256x512 ![0, 0] (shapeCast S768x512 wabc shapeCasts_S768x512_S768x512) slices_S768x512_o0_0_S256x512)
              (constant S2000x512 .f32 0x00000000#32))
            (matmul dot_S2000x256_S256x512_S2000x512_1_0_0_1_n_n none (truncf .bf16 xd bitsLt_bf16_f32)
              (extractStridedSlice S256x512 ![256, 0] (shapeCast S768x512 wabc shapeCasts_S768x512_S768x512) slices_S768x512_o256_0_S256x512)
              (constant S2000x512 .f32 0x00000000#32)))
            (matmul dot_S2000x256_S256x512_S2000x512_1_0_0_1_n_n none (truncf .bf16 xa bitsLt_bf16_f32)
              (extractStridedSlice S256x512 ![512, 0] (shapeCast S768x512 wabc shapeCasts_S768x512_S768x512) slices_S768x512_o512_0_S256x512)
              (constant S2000x512 .f32 0x00000000#32)))
            (matmul dot_S2000x64_S64x512_S2000x512_1_0_0_1_n_n none
              (truncf .bf16 (sitofp .f32 (extui 32 (cmpi .eq (broadcastTo S2000x64 (shapeCast S2000x1 ids shapeCasts_S2000x1_S2000x1) broadcasts_S2000x1_S2000x64)
                (iota .tc S2000x64 32 [1] iota_S2000x64_d1_w32)) natLt_1_32)) bitsLt_bf16_f32)
              (shapeCast S64x512 tu shapeCasts_S64x512_S64x512) (constant S2000x512 .f32 0x00000000#32)))
            (broadcastTo S2000x512 (shapeCast S1x512 c1 shapeCasts_S512_S1x512) broadcasts_S1x512_S2000x512))
            (broadcast S2000x512 (Scalar.ofBits .f32 0x00000000#32))) bitsLt_bf16_f32)
          (shapeCast S512x256 w2 shapeCasts_S512x256_S512x256) (constant S2000x256 .f32 0x00000000#32) := rfl

/-- ENTRY (r, j) of the body's value before the output bias. -/
theorem payload_apply (r : Fin 2000) (j : Fin 256) :
    k0_pay2 (F := Ideal) ids xs xd xa wabc tu c1 w2 (ix2 r j)
      = ∑ h : Fin 512, max (((((∑ k : Fin 256, xs (ix2 r k) * wabc (ix2 ⟨k.val, by have := k.isLt; omega⟩ h))
            + ∑ k : Fin 256, xd (ix2 r k) * wabc (ix2 ⟨256 + k.val, by have := k.isLt; omega⟩ h))
            + ∑ k : Fin 256, xa (ix2 r k) * wabc (ix2 ⟨512 + k.val, by have := k.isLt; omega⟩ h))
            + ∑ b : Fin 64, oneHot (ids (ix2 r (⟨0, Nat.one_pos⟩ : Fin 1))) b * tu (ix2 b h))
            + c1 (ix1 h)) 0 * w2 (ix2 h j) := by
  rw [payload_tree, dot512_apply]
  refine Finset.sum_congr rfl fun h _ => ?_
  rw [shapeCast_self w2]
  congr 1
  show max (((((matmul dot_S2000x256_S256x512_S2000x512_1_0_0_1_n_n none (truncf .bf16 xs bitsLt_bf16_f32)
              (extractStridedSlice S256x512 ![0, 0] (shapeCast S768x512 wabc shapeCasts_S768x512_S768x512) slices_S768x512_o0_0_S256x512)
              (constant S2000x512 .f32 0x00000000#32) (ix2 r h))
      + (matmul dot_S2000x256_S256x512_S2000x512_1_0_0_1_n_n none (truncf .bf16 xd bitsLt_bf16_f32)
              (extractStridedSlice S256x512 ![256, 0] (shapeCast S768x512 wabc shapeCasts_S768x512_S768x512) slices_S768x512_o256_0_S256x512)
              (constant S2000x512 .f32 0x00000000#32) (ix2 r h)))
      + (matmul dot_S2000x256_S256x512_S2000x512_1_0_0_1_n_n none (truncf .bf16 xa bitsLt_bf16_f32)
              (extractStridedSlice S256x512 ![512, 0] (shapeCast S768x512 wabc shapeCasts_S768x512_S768x512) slices_S768x512_o512_0_S256x512)
              (constant S2000x512 .f32 0x00000000#32) (ix2 r h)))
      + (matmul dot_S2000x64_S64x512_S2000x512_1_0_0_1_n_n none
              (truncf .bf16 (sitofp .f32 (extui 32 (cmpi .eq (broadcastTo S2000x64 (shapeCast S2000x1 ids shapeCasts_S2000x1_S2000x1) broadcasts_S2000x1_S2000x64)
                (iota .tc S2000x64 32 [1] iota_S2000x64_d1_w32)) natLt_1_32)) bitsLt_bf16_f32)
              (shapeCast S64x512 tu shapeCasts_S64x512_S64x512) (constant S2000x512 .f32 0x00000000#32) (ix2 r h)))
      + (broadcastTo S2000x512 (shapeCast S1x512 c1 shapeCasts_S512_S1x512) broadcasts_S1x512_S2000x512 (ix2 r h)))
      (Ideal.ofBits .f32 0x00000000#32) = _
  rw [Ideal.ofBits_zero_f32, dot256_apply, dot256_apply, dot256_apply, dot64_apply, bias_row_apply, shapeCast_self tu]
  have e0 : ∀ k : Fin 256, extractStridedSlice S256x512 ![0, 0] (shapeCast S768x512 wabc shapeCasts_S768x512_S768x512)
      slices_S768x512_o0_0_S256x512 (ix2 k h) = wabc (ix2 ⟨k.val, by have := k.isLt; omega⟩ h) := fun k =>
    (band_apply 0 (by omega) wabc _ _ k h).trans (congrArg (fun x => wabc (ix2 x h)) (Fin.ext (Nat.zero_add k.val)))
  have e1 : ∀ k : Fin 256, extractStridedSlice S256x512 ![256, 0] (shapeCast S768x512 wabc shapeCasts_S768x512_S768x512)
      slices_S768x512_o256_0_S256x512 (ix2 k h) = wabc (ix2 ⟨256 + k.val, by have := k.isLt; omega⟩ h) := fun k =>
    band_apply 256 (by omega) wabc _ _ k h
  have e2 : ∀ k : Fin 256, extractStridedSlice S256x512 ![512, 0] (shapeCast S768x512 wabc shapeCasts_S768x512_S768x512)
      slices_S768x512_o512_0_S256x512 (ix2 k h) = wabc (ix2 ⟨512 + k.val, by have := k.isLt; omega⟩ h) := fun k =>
    band_apply 512 (by omega) wabc _ _ k h
  have e3 : ∀ b : Fin 64, (truncf .bf16 (sitofp .f32 (extui 32 (cmpi .eq (broadcastTo S2000x64 (shapeCast S2000x1 ids shapeCasts_S2000x1_S2000x1) broadcasts_S2000x1_S2000x64)
      (iota .tc S2000x64 32 [1] iota_S2000x64_d1_w32)) natLt_1_32)) bitsLt_bf16_f32 : FVec Ideal S2000x64 .bf16) (ix2 r b)
        = oneHot (ids (ix2 r (⟨0, Nat.one_pos⟩ : Fin 1))) b := fun b =>
    selection_apply ids _ _ _ _ r b
  simp only [e0, e1, e2, e3]
  rfl

end

end Cert.KernelIdeal.Row

end
-- ==== Proof.BlockReads.lean ====
/-
  The blocks a grid point stages, read back to the arguments.

  Grid point t stages rows 2000·t … 2000·t + 1999 of the three edge feature arrays and of the id column, and the whole
  of the weight band, the folded graph table, the two biases and the second layer (their block index is 0 at every
  point). The id column is the id vector reshaped [200000] → [200000, 1]; the weight band is rows 0 … 767 of W1;
  the folded table is u contracted with rows 768 … 1023 of W1; the casts to the narrow float format are the identity
  on extended reals.
-/
import proofs.«427839_j72567767433246_3_alg».proof.Proof.Gen.KernelIdeal.Value
import proofs.«427839_j72567767433246_3_alg».proof.Proof.KernelRow
import proofs.«427839_j72567767433246_3_alg».proof.Proof.LibPlainDot
import proofs.«427839_j72567767433246_3_alg».proof.Proof.Spec
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.EdgeModel Idealize.ShloMosaic.StableHlo
open Idealize.ShloMosaic.Pipeline (Dat)

variable (m : (ℓ : Loc nD τ sig) → Buf (Elt Ideal) ℓ)

/-! ## The arguments, and the function of them the output ends as -/

abbrev srcA (c : Dev nD) : FVec Ideal S200000x256 .f32 := m ((c : Thread nD τ).loc main_arg0)
abbrev destA (c : Dev nD) : FVec Ideal S200000x256 .f32 := m ((c : Thread nD τ).loc main_arg1)
abbrev attrA (c : Dev nD) : FVec Ideal S200000x256 .f32 := m ((c : Thread nD τ).loc main_arg2)
abbrev uA (c : Dev nD) : FVec Ideal S64x256 .f32 := m ((c : Thread nD τ).loc main_arg3)
abbrev idsA (c : Dev nD) : IVec S200000 32 := m ((c : Thread nD τ).loc main_arg4)
abbrev w1A (c : Dev nD) : FVec Ideal S1024x512 .f32 := m ((c : Thread nD τ).loc main_arg5)
abbrev b1A (c : Dev nD) : FVec Ideal S512 .f32 := m ((c : Thread nD τ).loc main_arg6)
abbrev w2A (c : Dev nD) : FVec Ideal S512x256 .f32 := m ((c : Thread nD τ).loc main_arg7)
abbrev b2A (c : Dev nD) : FVec Ideal S256 .f32 := m ((c : Thread nD τ).loc main_arg8)

/-- The edge model's output as a function of the launch contents of the arguments. -/
def result (c : Dev nD) : S200000x256.Idx → EReal :=
  out (srcA m c) (destA m c) (attrA m c) (uA m c) (idsA m c) (w1A m c) (b1A m c) (w2A m c) (b2A m c)

/-! ## The arrays the region finds that host operations wrote -/

theorem V_ids (c : Dev nD) :
    (V m c main_v0 : S200000x1.Idx → BitVec 32) = shapeCast S200000x1 (idsA m c) shapeCasts_S200000_S200000x1 := by
  dsimp only [Gen.V, Gen.hostOps0]
  after_results
  rfl

theorem V_band (c : Dev nD) :
    (V m c main_v2 : S768x512.Idx → EReal)
      = truncf .bf16 (extractStridedSlice S768x512 ![0, 0] (w1A m c) slices_S1024x512_S768x512_0_0) bitsLt_bf16_f32 := by
  dsimp only [Gen.V, Gen.hostOps0]
  after_results

theorem V_folded (c : Dev nD) :
    (V m c main_v5 : S64x512.Idx → EReal)
      = truncf .bf16 (Host.dotGeneral dot_S64x256_S256x512_S64x512_1_0_0_1_n_n none (uA m c)
          (extractStridedSlice S256x512 ![768, 0] (w1A m c) slices_S1024x512_S256x512_768_0)) bitsLt_bf16_f32 := by
  dsimp only [Gen.V, Gen.hostOps0]
  after_results

theorem V_second (c : Dev nD) :
    (V m c main_v6 : S512x256.Idx → EReal) = truncf .bf16 (w2A m c) bitsLt_bf16_f32 := by
  dsimp only [Gen.V, Gen.hostOps0]
  after_results

/-! ## The index maps, decided over the grid -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem point_lt (t : Fin cfg0.N) : t.val < 100 := by
  have hN : cfg0.N = 100 := N_0
  have := t.isLt
  omega

/-! ## The blocks at a point, with their literal types -/

abbrev srcB (c : Dev nD) (t : Fin cfg0.N) : FVec Ideal S2000x256 .f32 := iblk m c 0 t
abbrev destB (c : Dev nD) (t : Fin cfg0.N) : FVec Ideal S2000x256 .f32 := iblk m c 1 t
abbrev attrB (c : Dev nD) (t : Fin cfg0.N) : FVec Ideal S2000x256 .f32 := iblk m c 2 t
abbrev idsB (c : Dev nD) (t : Fin cfg0.N) : Vec Ideal S2000x1 .i32 := iblk m c 3 t
abbrev foldedB (c : Dev nD) (t : Fin cfg0.N) : FVec Ideal S64x512 .bf16 := iblk m c 4 t
abbrev bandB (c : Dev nD) (t : Fin cfg0.N) : FVec Ideal S768x512 .bf16 := iblk m c 5 t
abbrev b1B (c : Dev nD) (t : Fin cfg0.N) : FVec Ideal S512 .f32 := iblk m c 6 t
abbrev secondB (c : Dev nD) (t : Fin cfg0.N) : FVec Ideal S512x256 .bf16 := iblk m c 7 t
abbrev b2B (c : Dev nD) (t : Fin cfg0.N) : FVec Ideal S256 .f32 := iblk m c 8 t

/-- Row r of point t's blocks is edge 2000·t + r. -/
abbrev edgeOf (t : Fin cfg0.N) (r : Fin 2000) : Fin 200000 :=
  ⟨2000 * t.val + r.val, by have := point_lt t; have := r.isLt; omega⟩

theorem src_read (c : Dev nD) (t : Fin cfg0.N) (r : Fin 2000) (k : Fin 256) :
    srcB m c t (ix2 r k) = srcA m c (ix2 (edgeOf t r) k) := by
  obtain ⟨e0, e1, -⟩ := idx_facts t
  show V m c main_arg0 (((cfg0.win 0).blk t).view.emb (ix2 r k)) = _
  rw [V_main_arg0]
  refine congrArg (srcA m c) (funext fun a => Fin.ext ?_)
  match a with
  | ⟨0, _⟩ => show win0_0.index t (0 : Fin 2) * 2000 + 1 * r.val = 2000 * t.val + r.val; omega
  | ⟨1, _⟩ => show win0_0.index t (1 : Fin 2) * 256 + 1 * k.val = k.val; omega

theorem dest_read (c : Dev nD) (t : Fin cfg0.N) (r : Fin 2000) (k : Fin 256) :
    destB m c t (ix2 r k) = destA m c (ix2 (edgeOf t r) k) := by
  obtain ⟨-, -, e0, e1, -⟩ := idx_facts t
  show V m c main_arg1 (((cfg0.win 1).blk t).view.emb (ix2 r k)) = _
  rw [V_main_arg1]
  refine congrArg (destA m c) (funext fun a => Fin.ext ?_)
  match a with
  | ⟨0, _⟩ => show win0_1.index t (0 : Fin 2) * 2000 + 1 * r.val = 2000 * t.val + r.val; omega
  | ⟨1, _⟩ => show win0_1.index t (1 : Fin 2) * 256 + 1 * k.val = k.val; omega

theorem attr_read (c : Dev nD) (t : Fin cfg0.N) (r : Fin 2000) (k : Fin 256) :
    attrB m c t (ix2 r k) = attrA m c (ix2 (edgeOf t r) k) := by
  obtain ⟨-, -, -, -, e0, e1, -⟩ := idx_facts t
  show V m c main_arg2 (((cfg0.win 2).blk t).view.emb (ix2 r k)) = _
  rw [V_main_arg2]
  refine congrArg (attrA m c) (funext fun a => Fin.ext ?_)
  match a with
  | ⟨0, _⟩ => show win0_2.index t (0 : Fin 2) * 2000 + 1 * r.val = 2000 * t.val + r.val; omega
  | ⟨1, _⟩ => show win0_2.index t (1 : Fin 2) * 256 + 1 * k.val = k.val; omega

theorem ids_read (c : Dev nD) (t : Fin cfg0.N) (r : Fin 2000) :
    idsB m c t (ix2 r (⟨0, Nat.one_pos⟩ : Fin 1)) = idsA m c (ix1 (edgeOf t r)) := by
  obtain ⟨-, -, -, -, -, -, e0, e1, -⟩ := idx_facts t
  show (V m c main_v0 : S200000x1.Idx → BitVec 32) (((cfg0.win 3).blk t).view.emb (ix2 r (⟨0, Nat.one_pos⟩ : Fin 1))) = _
  rw [V_ids]
  refine shapeCast_apply _ _ _ (ix1 (edgeOf t r)) ?_
  rw [Shape.rowMajor_val_one, Shape.rowMajor_val_two]
  show 2000 * t.val + r.val = (win0_3.index t (0 : Fin 2) * 2000 + 1 * r.val) * 1 + (win0_3.index t (1 : Fin 2) * 1 + 1 * 0)
  omega

theorem band_read (c : Dev nD) (t : Fin cfg0.N) (k : Fin 768) (h : Fin 512) :
    bandB m c t (ix2 k h) = w1A m c (ix2 ⟨k.val, by have := k.isLt; omega⟩ h) := by
  obtain ⟨-, -, -, -, -, -, -, -, -, -, e0, e1, -⟩ := idx_facts t
  show (V m c main_v2 : S768x512.Idx → EReal) (((cfg0.win 5).blk t).view.emb (ix2 k h)) = _
  rw [V_band]
  show extractStridedSlice S768x512 ![0, 0] (w1A m c) slices_S1024x512_S768x512_0_0 (((cfg0.win 5).blk t).view.emb (ix2 k h)) = _
  refine extractStridedSlice_apply _ _ _ _ _ (fun a => ?_)
  match a with
  | ⟨0, _⟩ => show k.val = 0 + (win0_5.index t (0 : Fin 2) * 768 + 1 * k.val); omega
  | ⟨1, _⟩ => show h.val = 0 + (win0_5.index t (1 : Fin 2) * 512 + 1 * h.val); omega

theorem folded_read (c : Dev nD) (t : Fin cfg0.N) (b : Fin 64) (h : Fin 512) :
    foldedB m c t (ix2 b h) = foldedRow (uA m c) (w1A m c) b h := by
  obtain ⟨-, -, -, -, -, -, -, -, e0, e1, -⟩ := idx_facts t
  have ee : ((cfg0.win 4).blk t).view.emb (ix2 b h) = ix2 b h := by
    funext a; apply Fin.ext
    match a with
    | ⟨0, _⟩ => show win0_4.index t (0 : Fin 2) * 64 + 1 * b.val = b.val; omega
    | ⟨1, _⟩ => show win0_4.index t (1 : Fin 2) * 512 + 1 * h.val = h.val; omega
  show (V m c main_v5 : S64x512.Idx → EReal) (((cfg0.win 4).blk t).view.emb (ix2 b h)) = _
  rw [V_folded, ee]
  show FloatOps.dotGeneral (DotDims.plain 64 256 512) none .single (uA m c)
    (extractStridedSlice S256x512 ![768, 0] (w1A m c) slices_S1024x512_S256x512_768_0) (ix2 b h) = _
  rw [PlainDot.dotGeneral_apply]
  unfold foldedRow
  refine Finset.sum_congr rfl fun k _ => ?_
  congr 1
  refine extractStridedSlice_apply _ _ _ _ _ (fun a => ?_)
  match a with
  | ⟨0, _⟩ => rfl
  | ⟨1, _⟩ => show h.val = 0 + h.val; omega

theorem b1_read (c : Dev nD) (t : Fin cfg0.N) (h : Fin 512) : b1B m c t (ix1 h) = b1A m c (ix1 h) := by
  obtain ⟨-, -, -, -, -, -, -, -, -, -, -, -, e0, -⟩ := idx_facts t
  show V m c main_arg6 (((cfg0.win 6).blk t).view.emb (ix1 h)) = _
  rw [V_main_arg6]
  refine congrArg (b1A m c) (funext fun a => Fin.ext ?_)
  match a with
  | ⟨0, _⟩ => show win0_6.index t (0 : Fin 1) * 512 + 1 * h.val = h.val; omega

theorem second_read (c : Dev nD) (t : Fin cfg0.N) (h : Fin 512) (j : Fin 256) :
    secondB m c t (ix2 h j) = w2A m c (ix2 h j) := by
  obtain ⟨-, -, -, -, -, -, -, -, -, -, -, -, -, e0, e1, -⟩ := idx_facts t
  show (V m c main_v6 : S512x256.Idx → EReal) (((cfg0.win 7).blk t).view.emb (ix2 h j)) = _
  rw [V_second]
  refine congrArg (w2A m c) (funext fun a => Fin.ext ?_)
  match a with
  | ⟨0, _⟩ => show win0_7.index t (0 : Fin 2) * 512 + 1 * h.val = h.val; omega
  | ⟨1, _⟩ => show win0_7.index t (1 : Fin 2) * 256 + 1 * j.val = j.val; omega

theorem b2_read (c : Dev nD) (t : Fin cfg0.N) (j : Fin 256) : b2B m c t (ix1 j) = b2A m c (ix1 j) := by
  obtain ⟨-, -, -, -, -, -, -, -, -, -, -, -, -, -, -, e0, -⟩ := idx_facts t
  show V m c main_arg8 (((cfg0.win 8).blk t).view.emb (ix1 j)) = _
  rw [V_main_arg8]
  refine congrArg (b2A m c) (funext fun a => Fin.ext ?_)
  match a with
  | ⟨0, _⟩ => show win0_8.index t (0 : Fin 1) * 256 + 1 * j.val = j.val; omega

end Cert.KernelIdeal.Blocks

end
-- ==== Proof.Blocks.lean ====
/-
  What each grid point writes back, and the output array after the run.

  The block point t leaves, read at (r, j), is the edge model's output at (2000·t + r, j): the body's four band sums,
  over the staged blocks read back to the arguments, are the one contraction of the concatenated row once every id is
  below 64 (`Cert.EdgeModel.bands_eq`). The 100 blocks tile the output, so the array ends as that function.
-/
import proofs.«427839_j72567767433246_3_alg».proof.Proof.BlockReads

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.EdgeModel Idealize.ShloMosaic.StableHlo
open Idealize.ShloMosaic.Pipeline (Dat)

variable (m : (ℓ : Loc nD τ sig) → Buf (Elt Ideal) ℓ)

/-! ## What a point writes back -/

theorem hz2 : (![0, 0] : Fin 2 → Nat) = fun _ => 0 := funext fun a => by fin_cases a <;> rfl
theorem hz1 : (![0] : Fin 1 → Nat) = fun _ => 0 := funext fun a => by fin_cases a; rfl

/-- The edge model's output at edge e, column j, spelt out. -/
theorem result_apply (c : Dev nD) (e : Fin 200000) (j : Fin 256) :
    result m c (ix2 e j)
      = (∑ h : Fin 512, max ((∑ k : Fin 1024, catRow (srcA m c) (destA m c) (attrA m c) (uA m c) (idsA m c) e k * w1A m c (ix2 k h))
          + b1A m c (ix1 h)) 0 * w2A m c (ix2 h j)) + b2A m c (ix1 j) := rfl

/-- ENTRY (r, j) OF THE BLOCK POINT t LEAVES is the edge model's output at edge 2000·t + r, column j. -/
theorem block_entry (c : Dev nD) (t : Fin cfg0.N) (hids : ∀ e, (idsA m c e).toNat < 64) (y : S2000x256.Idx) :
    out0_9 (srcB m c t) (destB m c t) (attrB m c t) (idsB m c t) (foldedB m c t) (bandB m c t) (b1B m c t) (secondB m c t) (b2B m c t) y
      = result m c (ix2 (edgeOf t ⟨(y 0).val, idx2_lt0 y⟩) ⟨(y 1).val, idx2_lt1 y⟩) := by
  obtain ⟨r, j, rfl⟩ : ∃ (r : Fin 2000) (j : Fin 256), y = ix2 r j := ⟨y 0, y 1, eq_ix2 y⟩
  unfold out0_9
  rw [Value.canon9_eq]
  simp only [View.ld_unit_zero (S := S2000x1) hz2, View.ld_unit_zero (S := S2000x256) hz2, View.ld_unit_zero (S := S768x512) hz2,
    View.ld_unit_zero (S := S64x512) hz2, View.ld_unit_zero (S := S512) hz1, View.ld_unit_zero (S := S512x256) hz2,
    View.ld_unit_zero (S := S256) hz1]
  have e90 : Value.ix9_0 (ix2 r j) = ix2 r j := by
    funext a; match a with | ⟨0, _⟩ => rfl | ⟨1, _⟩ => rfl
  have e91 : Value.ix9_1 (ix2 r j) = ix1 j := by
    funext a; match a with | ⟨0, _⟩ => rfl
  show k0_pay2 (F := Ideal) (idsB m c t) (srcB m c t) (destB m c t) (attrB m c t) (bandB m c t) (foldedB m c t) (b1B m c t) (secondB m c t)
      (Value.ix9_0 (ix2 r j)) + b2B m c t (Value.ix9_1 (ix2 r j)) = _
  rw [e90, e91, Row.payload_apply, b2_read]
  show _ = result m c (ix2 (edgeOf t r) j)
  rw [result_apply]
  refine congrArg (fun x => x + b2A m c (ix1 j)) ?_
  refine Finset.sum_congr rfl fun h _ => ?_
  rw [second_read, b1_read, ids_read]
  refine congrArg (fun x => max (x + b1A m c (ix1 h)) 0 * w2A m c (ix2 h j)) ?_
  rw [← bands_eq (srcA m c) (destA m c) (attrA m c) (uA m c) (idsA m c) (w1A m c) (edgeOf t r) h (hids _)]
  simp only [src_read, dest_read, attr_read, band_read, folded_read]

/-- WHAT POINT t WRITES BACK is block t of the edge model's output. -/
theorem flushed_eq (c : Dev nD) (hids : ∀ e, (idsA m c e).toNat < 64) (t : Fin cfg0.N) :
    (dats m 0 c).flushed 9 t = ((cfg0.win 9).blk t).view.read (Elt Ideal) (result m c) := by
  obtain ⟨-, -, -, -, -, -, -, -, -, -, -, -, -, -, -, -, e0, e1⟩ := idx_facts t
  rw [Value.flushed9]
  funext y
  show out0_9 (srcB m c t) (destB m c t) (attrB m c t) (idsB m c t) (foldedB m c t) (bandB m c t) (b1B m c t) (secondB m c t) (b2B m c t) y
    = result m c (((cfg0.win 9).blk t).view.emb y)
  rw [block_entry m c t hids y]
  refine congrArg (result m c) (funext fun a => Fin.ext ?_)
  match a with
  | ⟨0, _⟩ => show 2000 * t.val + (y 0).val = win0_9.index t (0 : Fin 2) * 2000 + 1 * (y 0).val; omega
  | ⟨1, _⟩ => show (y 1).val = win0_9.index t (1 : Fin 2) * 256 + 1 * (y 1).val; omega

/-! ## The array after the run -/

/-- An index of the output is in point t's block iff each coordinate is in the block's range on its axis. -/
theorem mem_blk (t : Fin cfg0.N) (i : S200000x256.Idx) :
    i ∈ ((cfg0.win 9).blk t).view.set ↔ ∀ a : Fin 2, win0_9.index t a * S2000x256.size a ≤ (i a).val
      ∧ (i a).val < win0_9.index t a * S2000x256.size a + S2000x256.size a := by
  show i ∈ ((View.whole main_v7).slice (win0_9.rect t)).set ↔ _
  rw [View.set_slice_whole, Rect.mem_set_unit]
  exact Iff.rfl

/-- Every row of the output lies in the block of the point that is its row number divided by 2000. -/
theorem cover (i : S200000x256.Idx) : ∃ t : Fin cfg0.N, (cfg0.win 9).flush t = true ∧ i ∈ ((cfg0.win 9).blk t).view.set := by
  have hi0 : (i 0).val < 200000 := idx2_lt0 i
  have hi1 : (i 1).val < 256 := idx2_lt1 i
  have hN : cfg0.N = 100 := N_0
  let t : Fin cfg0.N := ⟨(i 0).val / 2000, by omega⟩
  obtain ⟨-, -, -, -, -, -, -, -, -, -, -, -, -, -, -, -, e0, e1⟩ := idx_facts t
  have ht : t.val = (i 0).val / 2000 := rfl
  refine ⟨t, flush0_9 t, ?_⟩
  rw [mem_blk]
  intro a
  match a with
  | ⟨0, _⟩ =>
    show win0_9.index t (0 : Fin 2) * 2000 ≤ (i 0).val ∧ (i 0).val < win0_9.index t (0 : Fin 2) * 2000 + 2000
    omega
  | ⟨1, _⟩ =>
    show win0_9.index t (1 : Fin 2) * 256 ≤ (i 1).val ∧ (i 1).val < win0_9.index t (1 : Fin 2) * 256 + 256
    omega

/-- THE OUTPUT ARRAY after the run is the edge model's output. -/
theorem final (c : Dev nD) (hids : ∀ e, (idsA m c e).toNat < 64) : (dats m 0 c).arrAt 9 cfg0.N = result m c :=
  (dats m 0 c).arrAt_eq_of_cover 9 (result m c) (fun t _ => flushed_eq m c hids t) cover

/-- The kernel's run, with the output array named: it is the edge model's output of the arguments, which end unchanged. -/
theorem run (ρ : Dev nD → PrngReg) (hids : ∀ c e, (idsA m c e).toNat < 64) :
    θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hids c)), (h c).2⟩) (Value.run_blocks m ρ)

end Cert.KernelIdeal.Blocks

end
-- ==== Proof.LibTakeRows.lean ====
/-
  Rows of a table taken by a column of row numbers, read at an entry.

  jnp's `table[idx]` for a rank-2 `table : [R, C]` and an integer vector `idx : [n]` lowers to a
  `stablehlo.gather` over the indices as a column `[n, 1]`: offset_dims `[1]`, collapsed_slice_dims `[0]`,
  start_index_map `[0]`, index_vector_dim 1, slice_sizes `[1, C]`. Result entry (e, k) is the table's entry
  (row, k), where row is the start index `idx[e, 0]` read as a signed integer and clamped into `[0, R − 1]`,
  as StableHLO's gather clamps every start index.
-/
import Idealize.ShloMosaic.Lib.ValueIdx

noncomputable section

namespace Idealize.ShloMosaic.TakeRows

open Idealize.ShloMosaic Idealize.ShloMosaic.ValueIdx

variable {α : Type}

/-- Those dimension numbers for a table `[R, C]`, start indices `[n, 1]` and a result `[n, C]`; their conditions
    `wf` are decided on a program's literal shapes. -/
abbrev rowDims (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the table at row `idx[e, 0]`, read signed and clamped into `[0, R − 1]`, column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowDims R C n wf) x idx (ix2 e k)
      = x (ix2 ⟨min (idx (ix2 e ⟨0, Nat.one_pos⟩)).toInt.toNat (R - 1), by omega⟩ k) := by
  unfold Host.gather
  congr 1
  funext a
  refine Fin.ext ?_
  show (rowDims R C n wf).start (ix2 e k) idx a + (rowDims R C n wf).batchCoord (ix2 e k) a
    + (rowDims R C n wf).offCoord (ix2 e k) a = _
  have h0 : (rowDims R C n wf).start (ix2 e k) idx (0 : Fin 2) + (rowDims R C n wf).batchCoord (ix2 e k) (0 : Fin 2)
      + (rowDims R C n wf).offCoord (ix2 e k) (0 : Fin 2) = min (idx (ix2 e ⟨0, Nat.one_pos⟩)).toInt.toNat (R - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 e k) ⟨List.idxOf (0 : Fin 2) (rowDims R C n wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims R C n wf).start (ix2 e k) idx (1 : Fin 2) + (rowDims R C n wf).batchCoord (ix2 e k) (1 : Fin 2)
      + (rowDims R C n wf).offCoord (ix2 e k) (1 : Fin 2) = k.val := by
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl
  match a with
  | ⟨0, _⟩ => exact h0
  | ⟨1, _⟩ => exact h1

end Idealize.ShloMosaic.TakeRows

end
-- ==== Proof.RefValue.lean ====
/-
  The reference's result is the edge model's function of the arguments.

  The reference wraps a negative graph id by 64, gathers the id's row of u (the gather clamps the row number into
  [0, 63]), joins the four feature blocks side by side into rows of 1024, contracts them with W1, adds b1, takes the
  maximum with 0, contracts with W2 and adds b2. Entry by entry that is `Cert.EdgeModel.out`: the joined row is
  `catRow` (each quarter of the joined axis reads its own block), the gathered row number is `graphOf`.
-/
import proofs.«427839_j72567767433246_3_alg».proof.Proof.Gen.ReferenceIdeal.Read
import proofs.«427839_j72567767433246_3_alg».proof.Proof.LibTakeRows
import proofs.«427839_j72567767433246_3_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeModel

section
variable (x0 x1 x2 : FVec Ideal S200000x256 .f32) (x3 : FVec Ideal S64x256 .f32) (x4 : IVec S200000 32)
  (x5 : FVec Ideal S1024x512 .f32) (x6 : FVec Ideal S512 .f32) (x7 : FVec Ideal S512x256 .f32) (x8 : FVec Ideal S256 .f32)

/-- The column of row numbers the gather reads, at edge e: the id word, raised by 64 when negative. -/
theorem start_apply (e : Fin 200000) :
    val_main_v5 (F := Ideal) x4 (ix2 e (⟨0, Nat.one_pos⟩ : Fin 1))
      = Scalar.select (IntOp.cmpi .slt (x4 (ix1 e)) 0#32) (IntOp.addi (x4 (ix1 e)) 64#32) (x4 (ix1 e)) := by
  rw [val_main_v5_apply, val_main_v4_apply, val_main_v1_apply, val_main_v3_apply, val_main_v0_apply, val_main_v2_apply,
    val_main_c_apply, val_main_c_0_apply]
  have ei : idx_main_v5 (ix2 e (⟨0, Nat.one_pos⟩ : Fin 1)) = ix1 e := by
    funext a; match a with | ⟨0, _⟩ => rfl
  rw [ei]

/-- The gathered block at (e, k): row `graphOf` of u. -/
theorem gathered_apply (e : Fin 200000) (k : Fin 256) :
    val_main_v6 (F := Ideal) x3 x4 (ix2 e k) = x3 (ix2 (graphOf (x4 (ix1 e))) k) := by
  unfold val_main_v6
  refine (TakeRows.gather_rows_apply (by decide) gather_S64x256_S200000x1_S200000x256_1_0_n_n_0_1_1256_wf x3
    (val_main_v5 (F := Ideal) x4) e k).trans ?_
  congr 2
  apply Fin.ext
  show min (val_main_v5 (F := Ideal) x4 (ix2 e (⟨0, Nat.one_pos⟩ : Fin 1))).toInt.toNat (64 - 1) = _
  rw [start_apply]
  rfl

/-- The joined block at (e, k): the concatenated row of edge e. -/
theorem joined_apply (e : Fin 200000) (k : Fin 1024) :
    val_main_v7 (F := Ideal) x0 x1 x2 x3 x4 (ix2 e k) = catRow x0 x1 x2 x3 x4 e k := by
  have hk := k.isLt
  unfold val_main_v7 catRow
  by_cases h0 : k.val < 256
  · rw [dif_pos h0]
    refine concatenate_apply_piece (t := S200000x1024) (1 : Fin 2) _ _ (ix2 e k) 0 ?_ S200000x256 x0 ?_ rfl 0 ?_
      (ix2 e ⟨k.val, h0⟩) (fun b hb => ?_) (Nat.zero_add _)
    · show (0 : Nat) < 4; omega
    · rfl
    · rfl
    · match b with
      | ⟨0, _⟩ => rfl
      | ⟨1, _⟩ => exact absurd rfl hb
  · rw [dif_neg h0]
    by_cases h1 : k.val < 512
    · rw [dif_pos h1]
      refine concatenate_apply_piece (t := S200000x1024) (1 : Fin 2) _ _ (ix2 e k) 1 ?_ S200000x256 x1 ?_ rfl 256 ?_
        (ix2 e ⟨k.val - 256, by omega⟩) (fun b hb => ?_) (by show 256 + (k.val - 256) = k.val; omega)
      · show (1 : Nat) < 4; omega
      · rfl
      · rfl
      · match b with
        | ⟨0, _⟩ => rfl
        | ⟨1, _⟩ => exact absurd rfl hb
    · rw [dif_neg h1]
      by_cases h2 : k.val < 768
      · rw [dif_pos h2]
        refine concatenate_apply_piece (t := S200000x1024) (1 : Fin 2) _ _ (ix2 e k) 2 ?_ S200000x256 x2 ?_ rfl 512 ?_
          (ix2 e ⟨k.val - 512, by omega⟩) (fun b hb => ?_) (by show 512 + (k.val - 512) = k.val; omega)
        · show (2 : Nat) < 4; omega
        · rfl
        · rfl
        · match b with
          | ⟨0, _⟩ => rfl
          | ⟨1, _⟩ => exact absurd rfl hb
      · rw [dif_neg h2, ← gathered_apply x3 x4 e ⟨k.val - 768, by omega⟩]
        refine concatenate_apply_piece (t := S200000x1024) (1 : Fin 2) _ _ (ix2 e k) 3 ?_ S200000x256 (val_main_v6 (F := Ideal) x3 x4) ?_ rfl 768 ?_
          (ix2 e ⟨k.val - 768, by omega⟩) (fun b hb => ?_) (by show 768 + (k.val - 768) = k.val; omega)
        · show (3 : Nat) < 4; omega
        · rfl
        · rfl
        · match b with
          | ⟨0, _⟩ => rfl
          | ⟨1, _⟩ => exact absurd rfl hb

/-- THE REFERENCE'S RESULT is the edge model's function of the arguments. -/
theorem result_eq :
    val_main_v16 (F := Ideal) x0 x1 x2 x3 x4 x5 x6 x7 x8 = out x0 x1 x2 x3 x4 x5 x6 x7 x8 := by
  funext i
  obtain ⟨e, j, rfl⟩ : ∃ (e : Fin 200000) (j : Fin 256), i = ix2 e j := ⟨i 0, i 1, eq_ix2 i⟩
  rw [val_main_v16_apply, val_main_v13_apply, val_main_v15_apply, val_main_v14_apply]
  unfold out
  have eb2 : x8 (idx_main_v14 (idx_main_v15 (ix2 e j))) = x8 (ix1 j) :=
    congrArg x8 (funext fun a => by match a with | ⟨0, _⟩ => rfl)
  rw [eb2]
  congr 1
  refine Finset.sum_congr rfl fun h _ => ?_
  have el : lidx_main_v13 (ix2 e j) h = ix2 e h := by
    funext a; match a with | ⟨0, _⟩ => rfl | ⟨1, _⟩ => rfl
  have er : ridx_main_v13 (ix2 e j) h = ix2 h j := by
    funext a; match a with | ⟨0, _⟩ => rfl | ⟨1, _⟩ => rfl
  rw [el, er, val_main_v12_apply, val_main_v11_apply, val_main_v8_apply, val_main_v10_apply, val_main_v9_apply,
    val_main_call0_v0_apply, val_main_call0_cst_apply]
  have eb1 : x6 (idx_main_v9 (idx_main_v10 (ix2 e h))) = x6 (ix1 h) :=
    congrArg x6 (funext fun a => by match a with | ⟨0, _⟩ => rfl)
  have es : (∑ k : Fin 1024, val_main_v7 (F := Ideal) x0 x1 x2 x3 x4 (lidx_main_v8 (ix2 e h) k) * x5 (ridx_main_v8 (ix2 e h) k))
      = ∑ k : Fin 1024, catRow x0 x1 x2 x3 x4 e k * x5 (ix2 k h) := Finset.sum_congr rfl fun k _ => by
    have el8 : lidx_main_v8 (ix2 e h) k = ix2 e k := by
      funext a; match a with | ⟨0, _⟩ => rfl | ⟨1, _⟩ => rfl
    have er8 : ridx_main_v8 (ix2 e h) k = ix2 k h := by
      funext a; match a with | ⟨0, _⟩ => rfl | ⟨1, _⟩ => rfl
    rw [el8, er8, joined_apply]
  rw [eb1, es]
  show max ((∑ k : Fin 1024, _) + _) (Ideal.ofBits .f32 0x00000000#32) * _ = max ((∑ k : Fin 1024, _) + _) 0 * _
  rw [Ideal.ofBits_zero_f32]

end

end Cert.ReferenceIdeal.RefValue

end
-- ==== Proof.IdsInRange.lean ====
/-
  The added part of the precondition, read back: every graph id is one of 0 … 63.

  The precondition is a conjunction that ends with `all (ids ≥ 0)` and `all (ids < 64)`, signed comparisons of the
  32-bit id words. A word that is at least 0 and below 64 as a signed integer has its sign bit clear, so its unsigned
  value is below 64.
-/
import proofs.«427839_j72567767433246_3_alg».proof.Pre_finite_inputs
import Idealize.ShloMosaic.Lib.ReduceAll
import Idealize.ShloMosaic.Lib.ValueIdx

noncomputable section

namespace Cert.Pre_finite_inputs.IdsInRange

open Cert.Pre_finite_inputs Idealize.ShloMosaic Idealize.ShloMosaic.ValueIdx

instance : Subsingleton S_.Idx := ⟨fun a b => funext fun d => d.elim0⟩

/-- A word in [0, 64) as a signed integer is below 64 as an unsigned one. -/
theorem word_lt (w : BitVec 32) (h0 : IntOp.cmpi .sge w 0#32 = 1#1) (h64 : IntOp.cmpi .slt w 64#32 = 1#1) : w.toNat < 64 := by
  have ob : ∀ b : Bool, BitVec.ofBool b = 1#1 ↔ b = true := by decide
  unfold IntOp.cmpi at h0 h64
  rw [ob] at h0 h64
  simp only [BitVec.slt, BitVec.sle, decide_eq_true_eq] at h0 h64
  have z0 : (0#32 : BitVec 32).toInt = 0 := by decide
  have z64 : (64#32 : BitVec 32).toInt = 64 := by decide
  rw [z0] at h0
  rw [z64] at h64
  have h32 := w.isLt
  rw [BitVec.toInt_eq_toNat_cond] at h0 h64
  split at h0 <;> omega

variable [Facts]

/-- THE PRECONDITION'S LAST TWO CONJUNCTS, at an edge: its id word is below 64. -/
theorem ids_lt {F : FTy → Type} [FloatOps F] (a0 a1 a2 : FVec F S200000x256 .f32) (a3 : FVec F S64x256 .f32) (a4 : IVec S200000 32)
    (a5 : FVec F S1024x512 .f32) (a6 : FVec F S512 .f32) (a7 : FVec F S512x256 .f32) (a8 : FVec F S256 .f32)
    (h : fn (F := F) a0 a1 a2 a3 a4 a5 a6 a7 a8 = fun _ => 1#1) (e : S200000.Idx) : (a4 e).toNat < 64 := by
  have h0 : fn_part2 (F := F) a4 a8 _ ix0 = 1#1 := congrFun h ix0
  dsimp only [fn_part2] at h0
  obtain ⟨h1, h45⟩ := IntOp.andi_eq_one.1 h0
  obtain ⟨h2, h41⟩ := IntOp.andi_eq_one.1 h1
  have hge := Host.reduce_andi_all _ _ _ _ _ h41 e
  have hlt := Host.reduce_andi_all _ _ _ _ _ h45 e
  exact word_lt _ hge hlt

end Cert.Pre_finite_inputs.IdsInRange

end
-- ==== Proof.lean ====
/-
  The edge model kernel against its reference: the frames, and equality of the results on the extended reals.

  Both programs compute, for each of 200000 edges, a two-layer perceptron of the edge's source, destination and
  attribute features joined with the global features of the edge's graph:
    out(e, ·) = max(cat(e, ·) · W1 + b1, 0) · W2 + b2,    cat(e, ·) = src(e, ·) ‖ dest(e, ·) ‖ attr(e, ·) ‖ u(g(e), ·).
  The reference gathers the row u(g(e), ·) and contracts the joined row of 1024 features with W1 in one product. The
  kernel contracts the three feature blocks with the matching 256-row bands of W1, and folds the gather into the
  weights: u · (rows 768 … 1023 of W1) is computed once as a 64-row table, and each edge picks its graph's row of
  that table by a product with the row of zeros and one 1 that marks g(e). The two agree on the extended reals by
  commutativity and associativity of the sums and by 0 · x = 0, 1 · x = x; no finiteness is needed for it. They agree
  only where the graph id is a row of u: for an id outside 0 … 63 the kernel's marking row is all zeros while the
  reference's gather wraps or clamps the id to some row, so the precondition also says every graph id is in 0 … 63.

  The three frames: the kernel's two are the generated frame certificates; the reference's is its generated run.
  The idealization rewrote nothing. The equality: the kernel's output array after its run is the edge model's function
  of the arguments (`Cert.KernelIdeal.Blocks.run`), and so is the reference's result
  (`Cert.ReferenceIdeal.RefValue.result_eq` over the generated run read one operation at a time).
-/
import proofs.«427839_j72567767433246_3_alg».proof.Defs
import proofs.«427839_j72567767433246_3_alg».proof.Proof.Gen.Kernel
import proofs.«427839_j72567767433246_3_alg».proof.Proof.Gen.Kernel.Skeleton
import proofs.«427839_j72567767433246_3_alg».proof.Proof.Gen.Kernel.Launch
import proofs.«427839_j72567767433246_3_alg».proof.Proof.Gen.Kernel.Points
import proofs.«427839_j72567767433246_3_alg».proof.Proof.Gen.Kernel.Frame
import proofs.«427839_j72567767433246_3_alg».proof.Proof.Gen.KernelIdeal
import proofs.«427839_j72567767433246_3_alg».proof.Proof.Gen.KernelIdeal.Skeleton
import proofs.«427839_j72567767433246_3_alg».proof.Proof.Gen.KernelIdeal.Launch
import proofs.«427839_j72567767433246_3_alg».proof.Proof.Gen.KernelIdeal.Points
import proofs.«427839_j72567767433246_3_alg».proof.Proof.Gen.KernelIdeal.Frame
import proofs.«427839_j72567767433246_3_alg».proof.Proof.Gen.ReferenceIdeal
import proofs.«427839_j72567767433246_3_alg».proof.Proof.Gen.Pre_finite_inputs
import proofs.«427839_j72567767433246_3_alg».proof.Proof.Gen.KernelIdeal.Value
import proofs.«427839_j72567767433246_3_alg».proof.Proof.Gen.ReferenceIdeal.Run
import proofs.«427839_j72567767433246_3_alg».proof.Proof.Gen.ReferenceIdeal.Read
import proofs.«427839_j72567767433246_3_alg».proof.Proof.Blocks
import proofs.«427839_j72567767433246_3_alg».proof.Proof.RefValue
import proofs.«427839_j72567767433246_3_alg».proof.Proof.IdsInRange
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every graph id in 0 … 63, both programs end with the edge model's
    function of the arguments as their result. -/
theorem algebraic : Cert.algebraic_KernelIdeal_ReferenceIdeal := by
  intro m ρ m' ρ' hpre hagree
  have hids : ∀ c e, (Cert.KernelIdeal.Blocks.idsA m c e).toNat < 64 := fun c e =>
    Cert.Pre_finite_inputs.IdsInRange.ids_lt _ _ _ _ _ _ _ _ _ (hpre c) e
  refine ⟨fun c => Cert.KernelIdeal.Blocks.result m c, Cert.KernelIdeal.Blocks.run m ρ hids, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq]
  obtain ⟨a0, a1, a2, a3, a4, a5, a6, a7, a8⟩ := hagree c
  rw [a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
